-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x512x256 : Shape := ⟨3, ![16, 512, 256]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel
  bcast_S_S16x512x256 : S_.BroadcastsInDim S16x512x256 (![] : Fin 0 → Fin S16x512x256.rank)
  reducesTo_S16x512x256_S_d0_1_2 : S16x512x256.ReducesTo [0, 1, 2] S_

variable [Facts]

def fn {F : FTy → Type} [FloatOps F] (main_arg0 : FVec F S16x2048x256 .f32) (main_arg1 : FVec F S16x512x256 .f32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x512x256 .f32 := Host.absf main_arg1
  let main_cst_0 : FVec F S_ .f32 := constant S_ .f32 0x7F800000#32
  let main_v5 : FVec F S16x512x256 .f32 := broadcastInDim S16x512x256 ![] bcast_S_S16x512x256 main_cst_0
  let main_v6 : IVec S16x512x256 1 := cmpf .olt main_v4 main_v5
  let main_c_1 : IVec S_ 1 := constantI S_ 1 1#1
  let main_v7 : IVec S_ 1 := (fun x v => Host.reduce IntOp.andi x v reducesTo_S16x512x256_S_d0_1_2 h_S_) main_v6 main_c_1
  let main_v8 : IVec S_ 1 := andi main_v3 main_v7
  main_v8
-- ==== Kernel.lean ====
abbrev S16x2048x256 : Shape := ⟨3, ![16, 2048, 256]⟩
abbrev S16x512x256 : Shape := ⟨3, ![16, 512, 256]⟩
abbrev S16x2048x512 : Shape := ⟨3, ![16, 2048, 512]⟩
abbrev S1x2048x256 : Shape := ⟨3, ![1, 2048, 256]⟩
abbrev S1x512x256 : Shape := ⟨3, ![1, 512, 256]⟩
abbrev S1x2048x512 : Shape := ⟨3, ![1, 2048, 512]⟩
abbrev S2048x256 : Shape := ⟨2, ![2048, 256]⟩
abbrev S512x256 : Shape := ⟨2, ![512, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x256, .f32⟩
  | .hbm, ⟨1, _⟩ => ⟨S16x512x256, .f32⟩
  | .hbm, ⟨2, _⟩ => ⟨S16x2048x512, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .f32⟩
  | .local _ .vmem, ⟨3, _⟩ => ⟨S1x512x256, .f32⟩
  | .local _ .vmem, ⟨4, _⟩ => ⟨S1x2048x512, .f32⟩
  | .local _ .vmem, ⟨5, _⟩ => ⟨S1x2048x512, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  reduces_S2048x512_S2048 : S2048x512.Reduces [1] S2048
  shapeCasts_S2048_S2048x1 : S2048.ShapeCasts S2048x1
  broadcasts_S2048x1_S2048x512 : S2048x1.Broadcasts S2048x512
  broadcasts_S2048x1_S2048x256 : S2048x1.Broadcasts S2048x256
  inb_S1x2048x512_S1x2048x256_0_0_0 : ∀ a, (![0, 0, 0] : Fin 3 → Nat) a + S1x2048x256.size a ≤ S1x2048x512.size a
  shapeCasts_S2048x256_S1x2048x256 : S2048x256.ShapeCasts S1x2048x256
  inb_S1x2048x512_S1x2048x256_0_0_256 : ∀ a, (![0, 0, 256] : Fin 3 → Nat) a + S1x2048x256.size a ≤ S1x2048x512.size a
  dot_S2048x256_S512x256_S2048x512_1_1_0_0_n_n_wf : DotDims.WF S2048x256 S512x256 S2048x512 [1] [1] [0] [0] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x2048x256.size a
  hwx0_0 : ∀ i : grid0.Coords, EltTy.bits .f32 = 32 ∨ (Rect.block (s := S16x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S16x512x256.size a
  hwx0_1 : ∀ i : grid0.Coords, EltTy.bits .f32 = 32 ∨ (Rect.block (s := S16x512x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S16x2048x512.size a
  hwx0_2 : ∀ i : grid0.Coords, EltTy.bits .f32 = 32 ∨ (Rect.block (s := S16x2048x512) S1x2048x512.size (cc0_transform_2 i) (hinb0_2 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x256 : Shape := ⟨3, ![16, 2048, 256]⟩
abbrev S16x512x256 : Shape := ⟨3, ![16, 512, 256]⟩
abbrev S16x2048x512 : Shape := ⟨3, ![16, 2048, 512]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x512x256, .f32⟩
  | .hbm, ⟨2, _⟩ => ⟨S16x2048x512, .f32⟩
  | .hbm, ⟨3, _⟩ => ⟨S_, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S16x2048x1, .f32⟩
  | .hbm, ⟨9, _⟩ => ⟨S16x2048x512, .f32⟩
  | .hbm, ⟨10, _⟩ => ⟨S16x2048x512, .f32⟩
  | .hbm, ⟨11, _⟩ => ⟨S16x2048x512, .f32⟩
  | .hbm, ⟨12, _⟩ => ⟨S_, .f32⟩
  | .hbm, ⟨13, _⟩ => ⟨S16x2048, .f32⟩
  | .hbm, ⟨14, _⟩ => ⟨S16x2048x1, .f32⟩
  | .hbm, ⟨15, _⟩ => ⟨S16x2048x512, .f32⟩
  | .hbm, ⟨16, _⟩ => ⟨S16x2048x512, .f32⟩
  | .hbm, ⟨17, _⟩ => ⟨S16x2048x256, .f32⟩
  | .hbm, ⟨18, _⟩ => ⟨S16x2048x512, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S16x2048x512_S16x2048_d2 : S16x2048x512.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x512_0_1_2 : S16x2048x1.BroadcastsInDim S16x2048x512 (![0, 1, 2] : Fin 3 → Fin S16x2048x512.rank)
  concatenates_S16x2048x256_S16x2048x256_S16x2048x512_d2 : Shape.Concatenates [S16x2048x256, S16x2048x256] S16x2048x512 2
  dot_S16x2048x256_S16x512x256_S16x2048x512_2_2_1_1_0_0_wf : DotDims.WF S16x2048x256 S16x512x256 S16x2048x512 [2] [2] [1] [1] [0] [0]
  dot_S16x2048x512_S16x512x256_S16x2048x256_2_1_1_2_0_0_wf : DotDims.WF S16x2048x512 S16x512x256 S16x2048x256 [2] [1] [1] [2] [0] [0]

variable [Facts₀]

def dot_S16x2048x256_S16x512x256_S16x2048x512_2_2_1_1_0_0 : DotDims S16x2048x256 S16x512x256 S16x2048x512 where
  lhsContracting := [2]
  rhsContracting := [2]
  lhsNonContracting := [1]
  rhsNonContracting := [1]
  lhsBatch := [0]
  rhsBatch := [0]
  wf := dot_S16x2048x256_S16x512x256_S16x2048x512_2_2_1_1_0_0_wf
def dot_S16x2048x512_S16x512x256_S16x2048x256_2_1_1_2_0_0 : DotDims S16x2048x512 S16x512x256 S16x2048x256 where
  lhsContracting := [2]
  rhsContracting := [1]
  lhsNonContracting := [1]
  rhsNonContracting := [2]
  lhsBatch := [0]
  rhsBatch := [0]
  wf := dot_S16x2048x512_S16x512x256_S16x2048x256_2_1_1_2_0_0_wf

class Facts : Prop extends Facts₀ where

variable [Facts]
-- ==== Proof.AttnLaw.lean ====
/-
  Attention weights on the extended reals, one row at a time.

  For one row of scores s : Fin M → EReal and one column v : Fin M → EReal of values, with the running maximum
  started at b:
    rowMax b s      = the maximum of b and all s m,
    weight b s m    = exp (s m - rowMax b s),
    deferred b s v  = (∑ m, weight m * v m) / (∑ m, weight m)        -- normalize after the weighted sum
    normalized b z s v = ∑ m, (w m / (z + ∑ m', w m')) * v m, w m = exp (s m - max b (rowMax b s))
                                                                      -- softmax first, then the weighted sum
  When every score and every value is a real number, b is not +∞, z = 0 and the row is not empty, the two agree:
  the maximum is then a real number, every weight a positive real, their sum a positive real λ, division by λ is
  multiplication by the real 1/λ, and (∑ w v) · (1/λ) = ∑ (w · (1/λ)) v in ℝ.
-/
import Idealize.ShloMosaic.PureOps.Ideal
import Mathlib.Data.Finset.Fold

noncomputable section

namespace Cert.AttnLaw

open Idealize.ShloMosaic

variable {M : Nat}

/-- The maximum of `b` and every score of the row. -/
def rowMax (b : EReal) (s : Fin M → EReal) : EReal := (Finset.univ : Finset (Fin M)).fold max b s

/-- The unnormalized weight of position `m`. -/
def weight (b : EReal) (s : Fin M → EReal) (m : Fin M) : EReal := Ideal.exp (s m - rowMax b s)

/-- The weighted sum of the values, divided by the sum of the weights afterwards. -/
def deferred (b : EReal) (s v : Fin M → EReal) : EReal :=
  Ideal.div (∑ m, weight b s m * v m) (∑ m, weight b s m)

/-- The weights divided by their sum first (the sum started at `z`, the maximum taken once more against `b`), then
    the weighted sum of the values. -/
def normalized (b z : EReal) (s v : Fin M → EReal) : EReal :=
  ∑ m, Ideal.div (Ideal.exp (s m - max b (rowMax b s))) (z + ∑ m', Ideal.exp (s m' - max b (rowMax b s))) * v m

/-- The maximum already dominates its starting value. -/
theorem max_rowMax (b : EReal) (s : Fin M → EReal) : max b (rowMax b s) = rowMax b s :=
  max_eq_right ((Finset.le_fold_max _).mpr (Or.inl le_rfl))

/-- The coercion of reals into the extended reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The maximum of a nonempty row of reals, started below +∞, is a real. -/
theorem rowMax_real (b : EReal) (hb : b ≠ ⊤) (hM : 0 < M) (s' : Fin M → ℝ) :
    ∃ μ : ℝ, rowMax b (fun m => (s' m : EReal)) = (μ : EReal) := by
  have htop : rowMax b (fun m => (s' m : EReal)) ≠ ⊤ := by
    apply ne_of_lt
    exact (Finset.fold_max_lt _).mpr ⟨lt_top_iff_ne_top.mpr hb, fun x _ => EReal.coe_lt_top _⟩
  have hbot : rowMax b (fun m => (s' m : EReal)) ≠ ⊥ := by
    apply ne_of_gt
    have h0 : ((s' ⟨0, hM⟩ : ℝ) : EReal) ≤ rowMax b (fun m => (s' m : EReal)) :=
      (Finset.le_fold_max _).mpr (Or.inr ⟨⟨0, hM⟩, Finset.mem_univ _, le_rfl⟩)
    exact lt_of_lt_of_le (EReal.bot_lt_coe _) h0
  exact ⟨_, (EReal.coe_toReal htop hbot).symm⟩

/-- Normalizing before or after the weighted sum gives the same number when the row's scores and the values are real. -/
theorem normalized_eq_deferred (b : EReal) (hb : b ≠ ⊤) (hM : 0 < M) (s' v' : Fin M → ℝ) :
    normalized b 0 (fun m => (s' m : EReal)) (fun m => (v' m : EReal))
      = deferred b (fun m => (s' m : EReal)) (fun m => (v' m : EReal)) := by
  obtain ⟨μ, hμ⟩ := rowMax_real b hb hM s'
  have hw : ∀ m, Ideal.exp ((s' m : EReal) - (μ : EReal)) = ((Real.exp (s' m - μ) : ℝ) : EReal) := fun m => by
    rw [← EReal.coe_sub]; rfl
  have hpos : (0 : ℝ) < ∑ m : Fin M, Real.exp (s' m - μ) :=
    Finset.sum_pos (fun m _ => Real.exp_pos _) ⟨⟨0, hM⟩, Finset.mem_univ _⟩
  have hne : (∑ m : Fin M, Real.exp (s' m - μ)) ≠ 0 := ne_of_gt hpos
  have hden : (∑ m : Fin M, ((Real.exp (s' m - μ) : ℝ) : EReal)) = ((∑ m : Fin M, Real.exp (s' m - μ) : ℝ) : EReal) :=
    (coe_sum _ _).symm
  unfold normalized deferred weight
  simp only [max_rowMax]
  simp only [hμ, hw, zero_add, hden, Ideal.div_coe hne, ← EReal.coe_mul]
  rw [← coe_sum, ← coe_sum, ← EReal.coe_mul, Finset.sum_mul]
  exact congrArg _ (Finset.sum_congr rfl fun m _ => by ring)

end Cert.AttnLaw

end
-- ==== Proof.LibPlainDot.lean ====
/-
  General facts about a matrix product of the plain kind, read at one entry on the extended reals.

  The product of an M x K left operand with a K x N right operand, no batch axis, the left contracted on its second
  axis and the right on its first, accumulated into the zero array: entry (a, j) is the sum over k of
  left (a, k) * right (k, j).  The contraction index of such a product has one axis, of extent K, and is re-indexed by
  its one coordinate; the operand indices at output (a, j) and contraction k are (a, k) and (k, j).

  A column [M, 1] broadcast along the second axis to [M, N] reads, at (a, j), the column's entry (a, 0).

  A record of dimension numbers printed with a program is this plain one whenever its six lists are
  [1], [0], [0], [1], [], [] (the seventh field is a proof), by reflexivity; the lemmas are stated for
  DotDims.plain M K N so that they serve every such record.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable (M K N : Nat)

/-- The left operand's row coordinate at output index j is j's row. -/
theorem plain_lhs_row (j : (⟨2, ![M, N]⟩ : Shape).Idx) (q : (DotDims.plain M K N).contr.Idx) :
    ((DotDims.plain M K N).lhsIdx j q 0).val = (j 0).val := rfl
/-- The left operand's column coordinate is the contraction index's one coordinate. -/
theorem plain_lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's row coordinate is the contraction index's one coordinate. -/
theorem plain_rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- The right operand's column coordinate at output index j is j's column. -/
theorem plain_rhs_col (j : (⟨2, ![M, N]⟩ : Shape).Idx) (q : (DotDims.plain M K N).contr.Idx) :
    ((DotDims.plain M K N).rhsIdx j q 1).val = (j 1).val := rfl

/-- A plain matrix product into the zero accumulator, at entry (a, j): the sum over k of W (a, k) * X (k, j). -/
theorem matmul_plain_zero (W : FVec Ideal ⟨2, ![M, K]⟩ .f32) (X : FVec Ideal ⟨2, ![K, N]⟩ .f32) (a : Fin M) (j : Fin N) :
    matmul (DotDims.plain M K N) none W X (constant ⟨2, ![M, N]⟩ .f32 0x00000000#32) (ix2 a j)
      = ∑ k : Fin K, W (ix2 a k) * X (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a j) ((contrEquiv1 (DotDims.plain M K N) K rfl rfl).symm k) = ix2 a k :=
    funext fun b => Fin.ext (by
      match b with
      | ⟨0, _⟩ => exact plain_lhs_row M K N _ _
      | ⟨1, _⟩ => exact (plain_lhs_col M K N _ _).trans hk)
  have er : (DotDims.plain M K N).rhsIdx (ix2 a j) ((contrEquiv1 (DotDims.plain M K N) K rfl rfl).symm k) = ix2 k j :=
    funext fun b => Fin.ext (by
      match b with
      | ⟨0, _⟩ => exact (plain_rhs_row M K N _ _).trans hk
      | ⟨1, _⟩ => exact plain_rhs_col M K N _ _)
  rw [el, er]

/-- A column broadcast along the second axis reads the column's entry of the same row. -/
theorem broadcast_col {α : Type} (b : (⟨2, ![M, 1]⟩ : Shape).Idx → α) (hb : (⟨2, ![M, 1]⟩ : Shape).Broadcasts ⟨2, ![M, N]⟩)
    (a : Fin M) (j : Fin N) : broadcastTo ⟨2, ![M, N]⟩ b hb (ix2 a j) = b (ix2 a 0) :=
  broadcastTo_apply b hb (ix2 a j) (ix2 a 0) (fun ax => by
    match ax with
    | ⟨0, _⟩ =>
      show a.val = if M = 1 then 0 else a.val
      split
      · have := a.isLt; omega
      · rfl
    | ⟨1, _⟩ =>
      show 0 = if (1 : Nat) = 1 then 0 else j.val
      rw [if_pos rfl])

end Cert.LibPlainDot

end
-- ==== Proof.LibPlainAny.lean ====
/-
  A plain matrix product on the extended reals, whatever float formats its operands carry.

  The product of an M x K left operand with a K x N right operand (no batch axis, the left contracted on its
  second axis, the right on its first) has at entry (a, j) the value: sum over k of left (a, k) * right (k, j).
  On the extended reals a change of float format is the identity, so this reading does not depend on the
  operands' formats: it holds for a kernel's product of bf16 operands accumulated into the f32 zero array,
  and for the host's product, which has no accumulator, alike.

  The contraction index of a plain product has one axis of extent K; re-indexed by its one coordinate k, the
  operand indices at output (a, j) are (a, k) and (k, j).
-/
import proofs.«420447_j20882130993254_3_alg».proof.Proof.LibPlainDot

noncomputable section

namespace Cert.LibPlainAny

open Idealize.ShloMosaic Idealize.ShloMosaic.ValueIdx

variable (M K N : Nat)

/-- The left operand's index at output (a, j) and contraction coordinate k is (a, k). -/
theorem plain_lhsIdx (a : Fin M) (j : Fin N) (k : Fin K) :
    (DotDims.plain M K N).lhsIdx (ix2 a j) ((contrEquiv1 (DotDims.plain M K N) K rfl rfl).symm k) = ix2 a k :=
  funext fun b => Fin.ext (by
    have hk := contrEquiv1_symm_val (DotDims.plain M K N) K rfl rfl k
    match b with
    | ⟨0, _⟩ => exact Cert.LibPlainDot.plain_lhs_row M K N _ _
    | ⟨1, _⟩ => exact (Cert.LibPlainDot.plain_lhs_col M K N _ _).trans hk)

/-- The right operand's index at output (a, j) and contraction coordinate k is (k, j). -/
theorem plain_rhsIdx (a : Fin M) (j : Fin N) (k : Fin K) :
    (DotDims.plain M K N).rhsIdx (ix2 a j) ((contrEquiv1 (DotDims.plain M K N) K rfl rfl).symm k) = ix2 k j :=
  funext fun b => Fin.ext (by
    have hk := contrEquiv1_symm_val (DotDims.plain M K N) K rfl rfl k
    match b with
    | ⟨0, _⟩ => exact (Cert.LibPlainDot.plain_rhs_row M K N _ _).trans hk
    | ⟨1, _⟩ => exact Cert.LibPlainDot.plain_rhs_col M K N _ _)

/-- A kernel's plain product into the zero array, operands of any formats, at entry (a, j). -/
theorem matmul_plain_zero_any {φ₁ φ₂ : FTy} (W : FVec Ideal ⟨2, ![M, K]⟩ φ₁) (X : FVec Ideal ⟨2, ![K, N]⟩ φ₂)
    (a : Fin M) (j : Fin N) :
    matmul (DotDims.plain M K N) none W X (constant ⟨2, ![M, N]⟩ .f32 0x00000000#32) (ix2 a j)
      = ∑ k : Fin K, (W (ix2 a k) : EReal) * (X (ix2 k j) : EReal) := by
  simp only [matmul]
  rw [Ideal.matmul_constant_zero_apply, ← Equiv.sum_comp (contrEquiv1 (DotDims.plain M K N) K rfl rfl).symm]
  refine Finset.sum_congr rfl fun k _ => ?_
  rw [plain_lhsIdx, plain_rhsIdx]

/-- The host's plain product, operands of any formats, at entry (a, j). -/
theorem dotGeneral_plain_any {φ₁ φ₂ : FTy} (W : FVec Ideal ⟨2, ![M, K]⟩ φ₁) (X : FVec Ideal ⟨2, ![K, N]⟩ φ₂)
    (a : Fin M) (j : Fin N) :
    Host.dotGeneral (DotDims.plain M K N) none W X (ix2 a j)
      = ∑ k : Fin K, (W (ix2 a k) : EReal) * (X (ix2 k j) : EReal) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainAny

end
-- ==== Proof.LibTransposedRhs.lean ====
/-
  A matrix product whose right operand is contracted on its LAST axis, read at one entry on the extended reals.

  The product of an M x K left operand with an N x K right operand (no batch axis, both contracted on their second
  axis: every row of the left against every row of the right) has at entry (a, j) the value
  sum over k of left (a, k) * right (j, k).  On the extended reals a change of float format is the identity, so the
  reading holds whatever formats the operands carry, for a kernel's product accumulated into the f32 zero array and
  for the host's product alike.

  The contraction index has one axis of extent K; re-indexed by its one coordinate k, the operand indices at
  output (a, j) are (a, k) and (j, k).

  A record of dimension numbers printed with a program is DotDims.transposedRhs M K N whenever its six lists are
  [1], [1], [0], [0], [], [] (the seventh field is a proof), by reflexivity.
-/
import Idealize.ShloMosaic.PureOps.Ideal.Laws
import Idealize.ShloMosaic.Lib.ValueIdx
import Idealize.ShloMosaic.Lib.Pipeline.Value

noncomputable section

namespace Cert.LibTransposedRhs

open Idealize.ShloMosaic Idealize.ShloMosaic.ValueIdx

variable (M K N : Nat)

/-- The left operand's row coordinate at output index j is j's row. -/
theorem lhs_row (j : (⟨2, ![M, N]⟩ : Shape).Idx) (q : (DotDims.transposedRhs M K N).contr.Idx) :
    ((DotDims.transposedRhs M K N).lhsIdx j q 0).val = (j 0).val := rfl
/-- The left operand's column coordinate is the contraction index's one coordinate. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's row coordinate at output index j is j's column. -/
theorem rhs_row (j : (⟨2, ![M, N]⟩ : Shape).Idx) (q : (DotDims.transposedRhs M K N).contr.Idx) :
    ((DotDims.transposedRhs M K N).rhsIdx j q 0).val = (j 1).val := rfl
/-- The right operand's column coordinate is the contraction index's one coordinate. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The left operand's index at output (a, j) and contraction coordinate k is (a, k). -/
theorem lhsIdx_eq (a : Fin M) (j : Fin N) (k : Fin K) :
    (DotDims.transposedRhs M K N).lhsIdx (ix2 a j) ((contrEquiv1 (DotDims.transposedRhs M K N) K rfl rfl).symm k) = ix2 a k :=
  funext fun b => Fin.ext (by
    have hk := contrEquiv1_symm_val (DotDims.transposedRhs M K N) K rfl rfl k
    match b with
    | ⟨0, _⟩ => exact lhs_row M K N _ _
    | ⟨1, _⟩ => exact (lhs_col M K N _ _).trans hk)

/-- The right operand's index at output (a, j) and contraction coordinate k is (j, k). -/
theorem rhsIdx_eq (a : Fin M) (j : Fin N) (k : Fin K) :
    (DotDims.transposedRhs M K N).rhsIdx (ix2 a j) ((contrEquiv1 (DotDims.transposedRhs M K N) K rfl rfl).symm k) = ix2 j k :=
  funext fun b => Fin.ext (by
    have hk := contrEquiv1_symm_val (DotDims.transposedRhs M K N) K rfl rfl k
    match b with
    | ⟨0, _⟩ => exact rhs_row M K N _ _
    | ⟨1, _⟩ => exact (rhs_col M K N _ _).trans hk)

/-- A kernel's product of this kind into the zero array, operands of any formats, at entry (a, j). -/
theorem matmul_transposedRhs_zero_any {φ₁ φ₂ : FTy} (W : FVec Ideal ⟨2, ![M, K]⟩ φ₁) (X : FVec Ideal ⟨2, ![N, K]⟩ φ₂)
    (a : Fin M) (j : Fin N) :
    matmul (DotDims.transposedRhs M K N) none W X (constant ⟨2, ![M, N]⟩ .f32 0x00000000#32) (ix2 a j)
      = ∑ k : Fin K, (W (ix2 a k) : EReal) * (X (ix2 j k) : EReal) := by
  simp only [matmul]
  rw [Ideal.matmul_constant_zero_apply, ← Equiv.sum_comp (contrEquiv1 (DotDims.transposedRhs M K N) K rfl rfl).symm]
  refine Finset.sum_congr rfl fun k _ => ?_
  rw [lhsIdx_eq, rhsIdx_eq]

/-- The host's product of this kind, operands of any formats, at entry (a, j). -/
theorem dotGeneral_transposedRhs_any {φ₁ φ₂ : FTy} (W : FVec Ideal ⟨2, ![M, K]⟩ φ₁) (X : FVec Ideal ⟨2, ![N, K]⟩ φ₂)
    (a : Fin M) (j : Fin N) :
    Host.dotGeneral (DotDims.transposedRhs M K N) none W X (ix2 a j)
      = ∑ k : Fin K, (W (ix2 a k) : EReal) * (X (ix2 j k) : EReal) := by
  simp only [Host.dotGeneral]
  rw [Ideal.dotGeneral_apply, ← Equiv.sum_comp (contrEquiv1 (DotDims.transposedRhs M K N) K rfl rfl).symm]
  refine Finset.sum_congr rfl fun k _ => ?_
  rw [lhsIdx_eq, rhsIdx_eq]

end Cert.LibTransposedRhs

end
-- ==== Proof.LibLayout2.lean ====
/-
  Small layout facts read at an entry: a column [M, 1] and a row [1, N] broadcast in dimensions [0, 1] to [M, N],
  a vector [N] broadcast in dimension [1] to one row [1, N], and a vector [M] recast as a column [M, 1].
-/
import Idealize.ShloMosaic.Lib.ValueIdx
import Idealize.ShloMosaic.Lib.ValueLayout
import Idealize.ShloMosaic.Lib.Pipeline.Value

noncomputable section

namespace Cert.LibLayout2

open Idealize.ShloMosaic Idealize.ShloMosaic.ValueIdx

variable {α : Type}

/-- A column broadcast over the columns reads, at (r, q), the column's entry of row r. -/
theorem bcast_col_apply {M N : Nat} (y : (⟨2, ![M, 1]⟩ : Shape).Idx → α)
    (h : (⟨2, ![M, 1]⟩ : Shape).BroadcastsInDim ⟨2, ![M, N]⟩ ![0, 1]) (r : Fin M) (q : Fin N) :
    broadcastInDim ⟨2, ![M, N]⟩ ![0, 1] h y (ix2 r q) = y (ix2 r (0 : Fin 1)) :=
  broadcastInDim_apply ![0, 1] h y (ix2 r q) (ix2 r (0 : Fin 1)) fun ax => by
    match ax with
    | ⟨0, _⟩ =>
      show r.val = if M = 1 then 0 else r.val
      split
      · have := r.isLt; omega
      · rfl
    | ⟨1, _⟩ => rfl

/-- A row broadcast over the rows reads, at (r, q), the row's entry of column q. -/
theorem bcast_row_apply {M N : Nat} (y : (⟨2, ![1, N]⟩ : Shape).Idx → α)
    (h : (⟨2, ![1, N]⟩ : Shape).BroadcastsInDim ⟨2, ![M, N]⟩ ![0, 1]) (r : Fin M) (q : Fin N) :
    broadcastInDim ⟨2, ![M, N]⟩ ![0, 1] h y (ix2 r q) = y (ix2 (0 : Fin 1) q) :=
  broadcastInDim_apply ![0, 1] h y (ix2 r q) (ix2 (0 : Fin 1) q) fun ax => by
    match ax with
    | ⟨0, _⟩ => rfl
    | ⟨1, _⟩ =>
      show q.val = if N = 1 then 0 else q.val
      split
      · have := q.isLt; omega
      · rfl

/-- A vector broadcast to one row reads, at (u, q), the vector's entry q. -/
theorem bcast_vec_row_apply {N : Nat} (b : (⟨1, ![N]⟩ : Shape).Idx → α)
    (h : (⟨1, ![N]⟩ : Shape).BroadcastsInDim ⟨2, ![1, N]⟩ ![1]) (u : Fin 1) (q : Fin N) :
    broadcastInDim ⟨2, ![1, N]⟩ ![1] h b (ix2 u q) = b (ix1 q) :=
  broadcastInDim_apply ![1] h b (ix2 u q) (ix1 q) fun ax => by
    match ax with
    | ⟨0, _⟩ =>
      show q.val = if N = 1 then 0 else q.val
      split
      · have := q.isLt; omega
      · rfl

/-- A vector recast as a column reads, at (r, u), the vector's entry r. -/
theorem shapeCast_a_a1_apply {M : Nat} (x : (⟨1, ![M]⟩ : Shape).Idx → α) (h : (⟨1, ![M]⟩ : Shape).ShapeCasts ⟨2, ![M, 1]⟩)
    (r : Fin M) (u : Fin 1) : shapeCast ⟨2, ![M, 1]⟩ x h (ix2 r u) = x (ix1 r) :=
  shapeCast_apply x h _ _ (by
    have hu : u.val = 0 := by omega
    rw [Shape.rowMajor_val_two, Shape.rowMajor_val_one]
    show r.val = r.val * 1 + u.val
    omega)

end Cert.LibLayout2

end
-- ==== Proof.KernelBlock.lean ====
/-
  What the kernel's body computes from one batch's blocks, entry by entry, on the extended reals.

  The body holds a context block x0 : [1, 2048, 256] and a question block x1 : [1, 512, 256].  With
    score n m = ∑ d, x0 (0, n, d) * x1 (0, m, d)                   (every context row against every question row),
  row n of the second half of the output block is the attention-weighted sum of the question rows with the
  normalization deferred:  (∑ m, exp (score n m - max_m' score n m') * x1 (0, m, d)) / ∑ m, exp (score n m - max …).
  The first half of the output block is the context block itself.
-/
import proofs.«420447_j20882130993254_3_alg».proof.Proof.Gen.KernelIdeal.Skeleton
import proofs.«420447_j20882130993254_3_alg».proof.Proof.AttnLaw
import proofs.«420447_j20882130993254_3_alg».proof.Proof.LibPlainAny
import proofs.«420447_j20882130993254_3_alg».proof.Proof.LibTransposedRhs
import proofs.«420447_j20882130993254_3_alg».proof.Proof.LibLayout2
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-- The value the running maximum starts from (the f32 pattern of -∞). -/
abbrev negInf : EReal := Ideal.ofBits .f32 0xFF800000#32

/-- Row n of the scores of one batch: context row n against every question row. -/
def scoreRow (x0 : Vec Ideal S1x2048x256 .f32) (x1 : Vec Ideal S1x512x256 .f32) (n : Fin 2048) (m : Fin 512) : EReal :=
  ∑ d : Fin 256, x0 (ix3 (0 : Fin 1) n d) * x1 (ix3 (0 : Fin 1) m d)

/-- The row maximum, recast as a column and broadcast back over the row, reads at (n, k) the maximum of row n. -/
theorem rowMax_bcast (s : FVec Ideal S2048x512 .f32) (hr : S2048x512.Reduces [1] S2048) (hφ : FKind.Formats .f32)
    (hacc : (0xFF800000#32 : BitVec 32) = 0xFF800000#32) (hc : S2048.ShapeCasts S2048x1)
    (hb : S2048x1.Broadcasts S2048x512) (n : Fin 2048) (k : Fin 512) :
    broadcastTo S2048x512 (shapeCast S2048x1 (multiReduction .maximumf [1] S2048 s 0xFF800000#32 hr hφ hacc) hc) hb (ix2 n k)
      = AttnLaw.rowMax negInf (fun m => s (ix2 n m)) := by
  refine (Cert.LibPlainDot.broadcast_col 2048 512 _ hb n k).trans ?_
  refine (Cert.LibLayout2.shapeCast_a_a1_apply _ hc n 0).trans ?_
  refine (Ideal.multiReduction_maximumf_single s 0xFF800000#32 hr hφ hacc (ix1 n)).trans ?_
  show (Finset.univ : Finset (Fin 512)).fold max negInf (s ∘ hr.lift (ix1 n))
    = (Finset.univ : Finset (Fin 512)).fold max negInf (fun m => s (ix2 n m))
  refine congrArg (fun f => (Finset.univ : Finset (Fin 512)).fold max negInf f)
    (funext fun m => congrArg s (funext fun a => Fin.ext ?_))
  match a with
  | ⟨0, _⟩ => rfl
  | ⟨1, _⟩ => rfl

/-- The row sum, recast as a column and broadcast over 256 columns, reads at (n, d) the sum of row n. -/
theorem rowSum_bcast (p : FVec Ideal S2048x512 .f32) (hr : S2048x512.Reduces [1] S2048) (hφ : FKind.Formats .f32)
    (hacc : (0x00000000#32 : BitVec 32) = 0x00000000#32) (hc : S2048.ShapeCasts S2048x1)
    (hb : S2048x1.Broadcasts S2048x256) (n : Fin 2048) (d : Fin 256) :
    broadcastTo S2048x256 (shapeCast S2048x1 (multiReduction .add [1] S2048 p 0x00000000#32 hr hφ hacc) hc) hb (ix2 n d)
      = ∑ m : Fin 512, p (ix2 n m) := by
  refine (Cert.LibPlainDot.broadcast_col 2048 256 _ hb n d).trans ?_
  refine (Cert.LibLayout2.shapeCast_a_a1_apply _ hc n 0).trans ?_
  refine (Ideal.multiReduction_add_single p 0x00000000#32 hr hφ hacc (ix1 n)).trans ?_
  show ∑ m : Fin 512, p (hr.lift (ix1 n) m) = ∑ m : Fin 512, p (ix2 n m)
  refine Finset.sum_congr rfl fun m _ => congrArg p (funext fun a => Fin.ext ?_)
  match a with
  | ⟨0, _⟩ => rfl
  | ⟨1, _⟩ => rfl

/-- The first stored piece is the context block. -/
theorem pay2_apply (x0 : Vec Ideal S1x2048x256 .f32) (u : Fin 1) (n : Fin 2048) (d : Fin 256) :
    k0_pay2 (F := Ideal) x0 (ix3 u n d) = x0 (ix3 (0 : Fin 1) n d) := by
  unfold k0_pay2 k0_pay1
  refine (shapeCast_ab_1ab_apply _ _ u n d).trans ?_
  exact shapeCast_1ab_ab_apply _ _ n d

/-- The score matrix the body forms from its two blocks. -/
abbrev scores (x0 : Vec Ideal S1x2048x256 .f32) (x1 : Vec Ideal S1x512x256 .f32) : FVec Ideal S2048x512 .f32 :=
  matmul dot_S2048x256_S512x256_S2048x512_1_1_0_0_n_n none
    (truncf .bf16 (k0_pay1 (F := Ideal) x0) bitsLt_bf16_f32)
    (truncf .bf16 (shapeCast S512x256 x1 shapeCasts_S1x512x256_S512x256) bitsLt_bf16_f32)
    (constant S2048x512 .f32 0x00000000#32)

/-- At (n, m) it is context row n against question row m. -/
theorem scores_apply (x0 : Vec Ideal S1x2048x256 .f32) (x1 : Vec Ideal S1x512x256 .f32) (n : Fin 2048) (m : Fin 512) :
    scores x0 x1 (ix2 n m) = scoreRow x0 x1 n m := by
  have e := Cert.LibTransposedRhs.matmul_transposedRhs_zero_any 2048 256 512
    (truncf .bf16 (k0_pay1 (F := Ideal) x0) bitsLt_bf16_f32)
    (truncf .bf16 (shapeCast S512x256 x1 shapeCasts_S1x512x256_S512x256) bitsLt_bf16_f32) n m
  refine e.trans ?_
  unfold scoreRow k0_pay1
  refine Finset.sum_congr rfl fun d _ => ?_
  show shapeCast S2048x256 x0 _ (ix2 n d) * shapeCast S512x256 x1 _ (ix2 m d) = _
  exact congrArg₂ (· * ·) (shapeCast_1ab_ab_apply _ _ n d) (shapeCast_1ab_ab_apply _ _ m d)

/-- The exponential of a score less its row's maximum is the row's weight at that position. -/
theorem weight_apply (x0 : Vec Ideal S1x2048x256 .f32) (x1 : Vec Ideal S1x512x256 .f32)
    (hr : S2048x512.Reduces [1] S2048) (hφ : FKind.Formats .f32) (hacc : (0xFF800000#32 : BitVec 32) = 0xFF800000#32)
    (hc : S2048.ShapeCasts S2048x1) (hb : S2048x1.Broadcasts S2048x512) (n : Fin 2048) (m : Fin 512) :
    exp (subf (scores x0 x1) (broadcastTo S2048x512 (shapeCast S2048x1
        (multiReduction .maximumf [1] S2048 (scores x0 x1) 0xFF800000#32 hr hφ hacc) hc) hb)) (ix2 n m)
      = AttnLaw.weight negInf (scoreRow x0 x1 n) m := by
  show Ideal.exp (scores x0 x1 (ix2 n m) - broadcastTo S2048x512 _ hb (ix2 n m)) = _
  unfold AttnLaw.weight
  refine congrArg Ideal.exp (congrArg₂ (· - ·) (scores_apply x0 x1 n m) ?_)
  refine (rowMax_bcast _ hr hφ hacc hc hb n m).trans ?_
  exact congrArg (AttnLaw.rowMax negInf) (funext fun m' => scores_apply x0 x1 n m')

/-- The second stored piece at (u, n, d): the deferred-normalization attention output of row n, column d. -/
theorem pay3_apply (x0 : Vec Ideal S1x2048x256 .f32) (x1 : Vec Ideal S1x512x256 .f32) (u : Fin 1) (n : Fin 2048) (d : Fin 256) :
    k0_pay3 (F := Ideal) x0 x1 (ix3 u n d)
      = AttnLaw.deferred negInf (scoreRow x0 x1 n) (fun m => x1 (ix3 (0 : Fin 1) m d)) := by
  unfold k0_pay3
  dsimp only
  refine (shapeCast_ab_1ab_apply _ _ u n d).trans ?_
  refine (divf_apply _ _ _).trans ?_
  unfold AttnLaw.deferred
  refine congrArg₂ Ideal.div ?_ ?_
  · refine (Cert.LibPlainAny.matmul_plain_zero_any 2048 512 256 _ _ n d).trans ?_
    refine Finset.sum_congr rfl fun m _ => ?_
    refine congrArg₂ (· * ·) (weight_apply x0 x1 _ _ _ _ _ n m) ?_
    exact shapeCast_1ab_ab_apply _ _ m d
  · refine (rowSum_bcast _ _ _ _ _ _ n d).trans ?_
    exact Finset.sum_congr rfl fun m _ => weight_apply x0 x1 _ _ _ _ _ n m

end Cert.KernelIdeal.Block

end
-- ==== Proof.Spec.lean ====
/-
  The result array as ONE function of the two argument arrays, entry by entry, on the extended reals.

  C : [16, 2048, 256] is the encoded context, Q : [16, 512, 256] the encoded question.  For batch b,
    score b n m = ∑ d, C (b, n, d) * Q (b, m, d).
  The result G : [16, 2048, 512] is the context beside the attended question:
    G (b, n, j) = C (b, n, j)                                                    for j < 256,
    G (b, n, j) = (∑ m, w m * Q (b, m, j - 256)) / ∑ m, w m,  w m = exp (score b n m - max_m' score b n m')   for j ≥ 256,
  the normalization of the attention weights deferred until after the weighted sum.
-/
import proofs.«420447_j20882130993254_3_alg».proof.Proof.AttnLaw
import Idealize.ShloMosaic.Lib.ValueIdx

noncomputable section

namespace Cert.Spec

open Idealize.ShloMosaic Idealize.ShloMosaic.ValueIdx

/-- The value the running maximum starts from (the f32 pattern of -∞). -/
abbrev negInf : EReal := Ideal.ofBits .f32 0xFF800000#32

/-- It is not +∞ (it is -∞). -/
theorem negInf_ne_top : negInf ≠ ⊤ := by
  have h : negInf = ⊥ := by simp [negInf, Ideal.ofBits, Ideal.ieee]
  rw [h]; exact bot_ne_top

/-- Row n of the scores of batch b: context row n against every question row. -/
def scoreRow (C : (⟨3, ![16, 2048, 256]⟩ : Shape).Idx → EReal) (Q : (⟨3, ![16, 512, 256]⟩ : Shape).Idx → EReal)
    (b : Fin 16) (n : Fin 2048) (m : Fin 512) : EReal :=
  ∑ d : Fin 256, C (ix3 b n d) * Q (ix3 b m d)

/-- The column of a 256-wide half that a column j < 512 of the result falls on: j for the first half, j - 256 for
    the second (j mod 256 in both). -/
def half (j : Fin 512) : Fin 256 := ⟨j.val % 256, Nat.mod_lt _ (by decide)⟩

theorem half_val (j : Fin 512) : (half j).val = j.val % 256 := rfl

/-- The result array: the context in columns 0..255, the attended question in columns 256..511. -/
def G (C : (⟨3, ![16, 2048, 256]⟩ : Shape).Idx → EReal) (Q : (⟨3, ![16, 512, 256]⟩ : Shape).Idx → EReal) :
    (⟨3, ![16, 2048, 512]⟩ : Shape).Idx → EReal := fun i =>
  if (i 2).val < 256 then C (ix3 (i 0) (i 1) (half (i 2)))
  else AttnLaw.deferred negInf (scoreRow C Q (i 0) (i 1)) (fun m => Q (ix3 (i 0) m (half (i 2))))

/-- The same at an index given by its coordinates. -/
theorem G_apply (C : (⟨3, ![16, 2048, 256]⟩ : Shape).Idx → EReal) (Q : (⟨3, ![16, 512, 256]⟩ : Shape).Idx → EReal)
    (b : Fin 16) (n : Fin 2048) (j : Fin 512) :
    G C Q (ix3 b n j) = if j.val < 256 then C (ix3 b n (half j))
      else AttnLaw.deferred negInf (scoreRow C Q b n) (fun m => Q (ix3 b m (half j))) := rfl

/-- Every entry of both arrays is a real number. -/
def AllReal (C : (⟨3, ![16, 2048, 256]⟩ : Shape).Idx → EReal) (Q : (⟨3, ![16, 512, 256]⟩ : Shape).Idx → EReal) : Prop :=
  (∀ i, ∃ r : ℝ, C i = (r : EReal)) ∧ (∀ i, ∃ r : ℝ, Q i = (r : EReal))

/-- With real entries, normalizing the weights first gives the same attended question. -/
theorem normalized_eq (C : (⟨3, ![16, 2048, 256]⟩ : Shape).Idx → EReal) (Q : (⟨3, ![16, 512, 256]⟩ : Shape).Idx → EReal)
    (hR : AllReal C Q) (b : Fin 16) (n : Fin 2048) (d : Fin 256) :
    AttnLaw.normalized negInf 0 (scoreRow C Q b n) (fun m => Q (ix3 b m d))
      = AttnLaw.deferred negInf (scoreRow C Q b n) (fun m => Q (ix3 b m d)) := by
  choose c hc using hR.1
  choose q hq using hR.2
  have hs : scoreRow C Q b n = fun m => ((∑ d : Fin 256, c (ix3 b n d) * q (ix3 b m d) : ℝ) : EReal) := by
    funext m
    unfold scoreRow
    rw [AttnLaw.coe_sum]
    exact Finset.sum_congr rfl fun d _ => by rw [hc, hq, EReal.coe_mul]
  have hv : (fun m => Q (ix3 b m d)) = fun m => ((q (ix3 b m d) : ℝ) : EReal) := funext fun m => hq _
  rw [hs, hv]
  exact AttnLaw.normalized_eq_deferred negInf negInf_ne_top (by decide) _ _

end Cert.Spec

end
-- ==== Proof.Final.lean ====
/-
  From the kernel's blocks to its result array.

  The grid has one point per batch: point t stages block t of the context ([1, 2048, 256], rows of batch t), block t
  of the question ([1, 512, 256]) and writes back block t of the result ([1, 2048, 512]).  The body leaves two pieces
  in the output block: columns 0..255 hold the context block, columns 256..511 the attended question.  Both pieces
  are restrictions of one function of the block index, which is block t of the whole-array function G; the sixteen
  blocks tile the result array, so the array ends holding G.
-/
import proofs.«420447_j20882130993254_3_alg».proof.Proof.Gen.KernelIdeal.Value
import proofs.«420447_j20882130993254_3_alg».proof.Proof.KernelBlock
import proofs.«420447_j20882130993254_3_alg».proof.Proof.Spec

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

/-! ## The output block as one function of the block index -/

open Cert.Spec (half)

/-- The output block of one batch: the context block beside the attended question. -/
def Gblk (x0 : Vec Ideal S1x2048x256 .f32) (x1 : Vec Ideal S1x512x256 .f32) : Vec Ideal S1x2048x512 .f32 := fun y =>
  if (y 2).val < 256 then x0 (ix3 (0 : Fin 1) (y 1) (half (y 2)))
  else AttnLaw.deferred Block.negInf (Block.scoreRow x0 x1 (y 1)) (fun m => x1 (ix3 (0 : Fin 1) m (half (y 2))))

/-- The same at a block index given by its coordinates. -/
theorem Gblk_apply (x0 : Vec Ideal S1x2048x256 .f32) (x1 : Vec Ideal S1x512x256 .f32) (u : Fin 1) (n : Fin 2048) (j : Fin 512) :
    Gblk x0 x1 (ix3 u n j) = if j.val < 256 then x0 (ix3 (0 : Fin 1) n (half j))
      else AttnLaw.deferred Block.negInf (Block.scoreRow x0 x1 n) (fun m => x1 (ix3 (0 : Fin 1) m (half j))) := rfl

theorem hz3 : (![0, 0, 0] : Fin 3 → Nat) = fun _ => 0 := funext fun a => by fin_cases a <;> rfl

/-- The first piece (columns 0..255) agrees with it. -/
theorem piece_left (x0 : Vec Ideal S1x2048x256 .f32) (x1 : Vec Ideal S1x512x256 .f32) (x : S1x2048x256.Idx) :
    k0_pay2 (F := Ideal) x0 x = Gblk x0 x1 (r0_2.emb x) := by
  obtain ⟨u, n, d, rfl⟩ : ∃ (u : Fin 1) (n : Fin 2048) (d : Fin 256), x = ix3 u n d := ⟨x 0, x 1, x 2, eq_ix3 x⟩
  refine (Block.pay2_apply x0 u n d).trans ?_
  have hd : d.val < 256 := d.isLt
  have e : r0_2.emb (ix3 u n d) = ix3 u n (⟨d.val, by omega⟩ : Fin 512) := funext fun a => Fin.ext (by
    match a with
    | ⟨0, _⟩ => show 0 + 1 * u.val = u.val; omega
    | ⟨1, _⟩ => show 0 + 1 * n.val = n.val; omega
    | ⟨2, _⟩ => show 0 + 1 * d.val = d.val; omega)
  have ec : half (⟨d.val, by omega⟩ : Fin 512) = d := Fin.ext (by show d.val % 256 = d.val; omega)
  rw [e, Gblk_apply, if_pos (show d.val < 256 from hd), ec]

/-- The second piece (columns 256..511) agrees with it. -/
theorem piece_right (x0 : Vec Ideal S1x2048x256 .f32) (x1 : Vec Ideal S1x512x256 .f32) (x : S1x2048x256.Idx) :
    k0_pay3 (F := Ideal) x0 x1 x = Gblk x0 x1 (r0_3.emb x) := by
  obtain ⟨u, n, d, rfl⟩ : ∃ (u : Fin 1) (n : Fin 2048) (d : Fin 256), x = ix3 u n d := ⟨x 0, x 1, x 2, eq_ix3 x⟩
  refine (Block.pay3_apply x0 x1 u n d).trans ?_
  have hd : d.val < 256 := d.isLt
  have e : r0_3.emb (ix3 u n d) = ix3 u n (⟨256 + d.val, by omega⟩ : Fin 512) := funext fun a => Fin.ext (by
    match a with
    | ⟨0, _⟩ => show 0 + 1 * u.val = u.val; omega
    | ⟨1, _⟩ => show 0 + 1 * n.val = n.val; omega
    | ⟨2, _⟩ => show 256 + 1 * d.val = 256 + d.val; omega)
  have ec : half (⟨256 + d.val, by omega⟩ : Fin 512) = d := Fin.ext (by show (256 + d.val) % 256 = d.val; omega)
  rw [e, Gblk_apply, if_neg (show ¬ (256 + d.val < 256) by omega), ec]

/-- What the body leaves in the output block is that function. -/
theorem out_eq (x0 : Vec Ideal S1x2048x256 .f32) (x1 : Vec Ideal S1x512x256 .f32) :
    out0_2 (F := Ideal) x0 x1 = Gblk x0 x1 := by
  funext y
  unfold out0_2
  simp only [View.ld_unit_zero (S := S1x2048x256) hz3, View.ld_unit_zero (S := S1x512x256) hz3]
  refine View.canon_apply_of_pieces (Val := Elt Ideal) (Gblk x0 x1) _ (fun p hp x => ?_) y (cover0_2 _ _ y)
  rcases List.mem_cons.mp hp with rfl | hp
  · exact piece_right x0 x1 x
  · rcases List.mem_cons.mp hp with rfl | hp
    · exact piece_left x0 x1 x
    · exact absurd hp List.not_mem_nil

/-! ## Block t of the arrays -/

/-- One batch's output block is block t of G when its input blocks are batch tb's rows of the arrays. -/
theorem Gblk_eq_G (C : Vec Ideal S16x2048x256 .f32) (Q : Vec Ideal S16x512x256 .f32)
    (x0 : Vec Ideal S1x2048x256 .f32) (x1 : Vec Ideal S1x512x256 .f32) (tb : Fin 16)
    (hx0 : ∀ n d, x0 (ix3 (0 : Fin 1) n d) = C (ix3 tb n d)) (hx1 : ∀ k d, x1 (ix3 (0 : Fin 1) k d) = Q (ix3 tb k d))
    (u : Fin 1) (n : Fin 2048) (j : Fin 512) :
    Gblk x0 x1 (ix3 u n j) = Cert.Spec.G C Q (ix3 tb n j) := by
  have hs : Block.scoreRow x0 x1 n = Cert.Spec.scoreRow C Q tb n := by
    funext k
    unfold Block.scoreRow Cert.Spec.scoreRow
    exact Finset.sum_congr rfl fun d _ => by rw [hx0, hx1]
  have hv : (fun k => x1 (ix3 (0 : Fin 1) k (half j))) = fun k => Q (ix3 tb k (half j)) := funext fun k => hx1 k _
  rw [Gblk_apply, Cert.Spec.G_apply, hs, hx0, hv]

variable (m : (ℓ : Loc nD τ sig) → Buf (Elt Ideal) ℓ) (ρ : Dev nD → PrngReg)

/-- The printed index maps, decided over the sixteen points: point t takes block (t, 0, 0) of every array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The blocks and the arrays under names of their literal types. -/
abbrev cblk (c : Dev nD) (t : Fin cfg0.N) : Vec Ideal S1x2048x256 .f32 := iblk m c 0 t
abbrev qblk (c : Dev nD) (t : Fin cfg0.N) : Vec Ideal S1x512x256 .f32 := iblk m c 1 t
abbrev carr (c : Dev nD) : Vec Ideal S16x2048x256 .f32 := V m c main_arg0
abbrev qarr (c : Dev nD) : Vec Ideal S16x512x256 .f32 := V m c main_arg1

/-- The context block at point t holds batch t's rows of the context. -/
theorem cblk_apply (c : Dev nD) (t : Fin cfg0.N) (tb : Fin 16) (htb : tb.val = t.val) (n : Fin 2048) (d : Fin 256) :
    cblk m c t (ix3 (0 : Fin 1) n d) = carr m c (ix3 tb n d) := by
  obtain ⟨e0, e1, e2, -⟩ := idx_facts t
  show V m c main_arg0 (((cfg0.win 0).blk t).view.emb (ix3 (0 : Fin 1) n d)) = V m c main_arg0 (ix3 tb n d)
  refine congrArg (V m c main_arg0) (funext fun a => Fin.ext ?_)
  match a with
  | ⟨0, _⟩ => show win0_0.index t (0 : Fin 3) * 1 + 1 * 0 = tb.val; omega
  | ⟨1, _⟩ => show win0_0.index t (1 : Fin 3) * 2048 + 1 * n.val = n.val; omega
  | ⟨2, _⟩ => show win0_0.index t (2 : Fin 3) * 256 + 1 * d.val = d.val; omega

/-- The question block at point t holds batch t's rows of the question. -/
theorem qblk_apply (c : Dev nD) (t : Fin cfg0.N) (tb : Fin 16) (htb : tb.val = t.val) (k : Fin 512) (d : Fin 256) :
    qblk m c t (ix3 (0 : Fin 1) k d) = qarr m c (ix3 tb k d) := by
  obtain ⟨-, -, -, e0, e1, e2, -⟩ := idx_facts t
  show V m c main_arg1 (((cfg0.win 1).blk t).view.emb (ix3 (0 : Fin 1) k d)) = V m c main_arg1 (ix3 tb k d)
  refine congrArg (V m c main_arg1) (funext fun a => Fin.ext ?_)
  match a with
  | ⟨0, _⟩ => show win0_1.index t (0 : Fin 3) * 1 + 1 * 0 = tb.val; omega
  | ⟨1, _⟩ => show win0_1.index t (1 : Fin 3) * 512 + 1 * k.val = k.val; omega
  | ⟨2, _⟩ => show win0_1.index t (2 : Fin 3) * 256 + 1 * d.val = d.val; omega

/-- What point t writes back is block t of G of the argument arrays. -/
theorem flushed_eq (c : Dev nD) (t : Fin cfg0.N) :
    (dats m 0 c).flushed 2 t
      = ((cfg0.win 2).blk t).view.read (Elt Ideal) (Cert.Spec.G (carr m c) (qarr m c)) := by
  refine (Value.flushed2 m c t).trans ?_
  show (cfg0.win 2).cut (grid0.coords t) (out0_2 (cblk m c t) (qblk m c t)) = _
  rw [out_eq (cblk m c t) (qblk m c t)]
  obtain ⟨-, -, -, -, -, -, e0, e1, e2⟩ := idx_facts t
  have hN : cfg0.N = 16 := N_0
  have ht : t.val < 16 := by have := t.isLt; omega
  have key : ∀ y : S1x2048x512.Idx, Gblk (cblk m c t) (qblk m c t) y
      = Cert.Spec.G (carr m c) (qarr m c) (((cfg0.win 2).blk t).view.emb y) := fun y => by
    obtain ⟨u, n, j, rfl⟩ : ∃ (u : Fin 1) (n : Fin 2048) (j : Fin 512), y = ix3 u n j := ⟨y 0, y 1, y 2, eq_ix3 y⟩
    have e : ((cfg0.win 2).blk t).view.emb (ix3 u n j) = ix3 (⟨t.val, ht⟩ : Fin 16) n j := funext fun a => Fin.ext (by
      match a with
      | ⟨0, _⟩ => show win0_2.index t (0 : Fin 3) * 1 + 1 * u.val = t.val; have := u.isLt; omega
      | ⟨1, _⟩ => show win0_2.index t (1 : Fin 3) * 2048 + 1 * n.val = n.val; omega
      | ⟨2, _⟩ => show win0_2.index t (2 : Fin 3) * 512 + 1 * j.val = j.val; omega)
    rw [e]
    exact Gblk_eq_G (carr m c) (qarr m c) (cblk m c t) (qblk m c t) ⟨t.val, ht⟩
      (fun n d => cblk_apply m c t ⟨t.val, ht⟩ rfl n d) (fun k d => qblk_apply m c t ⟨t.val, ht⟩ rfl k d) u n j
  exact funext key

/-- An index of the result array is in point t's block iff each coordinate is in the block's range on its axis. -/
theorem mem_blk (t : Fin cfg0.N) (i : S16x2048x512.Idx) :
    i ∈ ((cfg0.win 2).blk t).view.set ↔ ∀ a : Fin 3, win0_2.index t a * S1x2048x512.size a ≤ (i a).val
      ∧ (i a).val < win0_2.index t a * S1x2048x512.size a + S1x2048x512.size a := by
  show i ∈ ((View.whole main_v0).slice (win0_2.rect t)).set ↔ _
  rw [View.set_slice_whole, Rect.mem_set_unit]
  exact Iff.rfl

/-- Every index of the result array is in the block of the point of its batch. -/
theorem cover (i : S16x2048x512.Idx) :
    ∃ t : Fin cfg0.N, (cfg0.win 2).flush t = true ∧ i ∈ ((cfg0.win 2).blk t).view.set := by
  have hN : cfg0.N = 16 := N_0
  have h0 : (i 0).val < 16 := (i 0).isLt
  have h1 : (i 1).val < 2048 := (i 1).isLt
  have h2 : (i 2).val < 512 := (i 2).isLt
  refine ⟨⟨(i 0).val, by omega⟩, flush0_2 _, ?_⟩
  obtain ⟨-, -, -, -, -, -, e0, e1, e2⟩ := idx_facts ⟨(i 0).val, by omega⟩
  have e0 : win0_2.index (⟨(i 0).val, by omega⟩ : Fin cfg0.N) (0 : Fin 3) = (i 0).val := e0
  rw [mem_blk]
  intro a
  match a with
  | ⟨0, _⟩ => show win0_2.index _ (0 : Fin 3) * 1 ≤ (i 0).val ∧ (i 0).val < win0_2.index _ (0 : Fin 3) * 1 + 1; rw [e0]; omega
  | ⟨1, _⟩ => show win0_2.index _ (1 : Fin 3) * 2048 ≤ (i 1).val ∧ (i 1).val < win0_2.index _ (1 : Fin 3) * 2048 + 2048; rw [e1]; omega
  | ⟨2, _⟩ => show win0_2.index _ (2 : Fin 3) * 512 ≤ (i 2).val ∧ (i 2).val < win0_2.index _ (2 : Fin 3) * 512 + 512; rw [e2]; omega

/-- The result array after the run is G of the argument arrays. -/
theorem final (c : Dev nD) : (dats m 0 c).arrAt 2 cfg0.N = Cert.Spec.G (carr m c) (qarr m c) :=
  (dats m 0 c).arrAt_eq_of_cover 2 (Cert.Spec.G (carr m c) (qarr m c)) (fun t _ => flushed_eq m c t) cover

/-- The kernel's run: it terminates with the result array at G of the argument arrays, the arguments unchanged. -/
theorem run : θ_run defs (onTc (τ := τ) (main (F := Ideal))) ⟨m, fun _ => 0, ρ⟩ fun r => ∀ c : Dev nD,
      r.2.mem ((c : Thread nD τ).loc main_v0)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefStages.lean ====
/-
  The reference, stage by stage, at an entry — and that its result is the function G of the argument arrays.

  The reference forms the scores by a batched product, takes each row's maximum (started at -∞, and taken once more
  against -∞), exponentiates the scores less the maximum, sums each row (started at 0), divides each weight by its
  row's sum, multiplies the normalized weights into the question rows by a second batched product, and lays the
  context and that product side by side along the last axis.  Entry (b, n, j) of the result is therefore the context
  entry for j < 256 and the softmax-first attended question for j ≥ 256; with real inputs the latter is the
  deferred-normalization form that G states.
-/
import proofs.«420447_j20882130993254_3_alg».proof.Proof.Gen.ReferenceIdeal.Read
import proofs.«420447_j20882130993254_3_alg».proof.Proof.Spec
import Idealize.ShloMosaic.PureOps.Reduce

noncomputable section

namespace Cert.ReferenceIdeal.Stages

open Cert.ReferenceIdeal Cert.ReferenceIdeal.Gen Cert.ReferenceIdeal.Read Idealize.ShloMosaic Idealize.ShloMosaic.ValueIdx
open Cert.Spec (negInf scoreRow G AllReal)

variable (C : (⟨S16x2048x256, .f32⟩ : BufTy).Contents (Elt Ideal)) (Q : (⟨S16x512x256, .f32⟩ : BufTy).Contents (Elt Ideal))

/-- The scores: entry (b, n, m) is context row n of batch b against question row m of batch b. -/
theorem v0_apply (b : Fin 16) (n : Fin 2048) (m : Fin 512) :
    val_main_v0 (F := Ideal) C Q (ix3 b n m) = scoreRow C Q b n m := by
  rw [val_main_v0_apply]
  unfold scoreRow
  refine Finset.sum_congr rfl fun d _ => ?_
  refine congrArg₂ (· * ·) (congrArg C (funext fun a => Fin.ext ?_)) (congrArg Q (funext fun a => Fin.ext ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

set_option maxRecDepth 65536 in
/-- The row maximum at (b, n): the maximum of -∞ and the scores of that row. -/
theorem v1_apply (b : Fin 16) (n : Fin 2048) :
    val_main_v1 (F := Ideal) C Q (ix2 b n) = AttnLaw.rowMax negInf (scoreRow C Q b n) := by
  unfold val_main_v1
  have hr : S16x2048x512.Reduces [2] S16x2048 := by decide
  refine (Host.reduce_eq_fold_single (α := EReal) (FloatOps.maximumf (F := Ideal) (φ := .f32)) (val_main_v0 (F := Ideal) C Q)
    (val_main_cst (F := Ideal)) reducesTo_S16x2048x512_S16x2048_d2 hr h_S_ (ix2 b n)).trans ?_
  show (Finset.univ : Finset (Fin 512)).fold max negInf (val_main_v0 (F := Ideal) C Q ∘ hr.lift (ix2 b n))
    = (Finset.univ : Finset (Fin 512)).fold max negInf (scoreRow C Q b n)
  refine congrArg (fun f => (Finset.univ : Finset (Fin 512)).fold max negInf f) (funext fun m => ?_)
  refine Eq.trans (congrArg (val_main_v0 (F := Ideal) C Q) (funext fun a => Fin.ext ?_)) (v0_apply C Q b n m)
  match a with
  | ⟨0, _⟩ => rfl
  | ⟨1, _⟩ => rfl
  | ⟨2, _⟩ => rfl

/-- The maximum broadcast back over the row, after one more maximum against -∞. -/
theorem v5_apply (b : Fin 16) (n : Fin 2048) (m : Fin 512) :
    val_main_v5 (F := Ideal) C Q (ix3 b n m) = max negInf (AttnLaw.rowMax negInf (scoreRow C Q b n)) := by
  rw [val_main_v5_apply, val_main_v4_apply]
  have e : idx_main_v4 (idx_main_v5 (ix3 b n m)) = ix2 b n := funext fun a => Fin.ext (by
    match a with
    | ⟨0, _⟩ => rfl
    | ⟨1, _⟩ => rfl)
  rw [e, val_main_v3_apply, v1_apply, val_main_v2_apply]
  rfl

/-- The unnormalized weight at (b, n, m). -/
theorem v7_apply (b : Fin 16) (n : Fin 2048) (m : Fin 512) :
    val_main_v7 (F := Ideal) C Q (ix3 b n m)
      = Ideal.exp (scoreRow C Q b n m - max negInf (AttnLaw.rowMax negInf (scoreRow C Q b n))) := by
  rw [val_main_v7_apply, val_main_v6_apply, v0_apply, v5_apply]
  rfl

/-- The row sum of the weights at (b, n), started at zero. -/
theorem v8_apply (b : Fin 16) (n : Fin 2048) :
    val_main_v8 (F := Ideal) C Q (ix2 b n)
      = 0 + ∑ m : Fin 512, Ideal.exp (scoreRow C Q b n m - max negInf (AttnLaw.rowMax negInf (scoreRow C Q b n))) := by
  rw [val_main_v8_apply, val_main_cst_1_apply]
  refine congrArg₂ (· + ·) Ideal.ofBits_zero_f32 (Finset.sum_congr rfl fun m _ => ?_)
  refine Eq.trans (congrArg (val_main_v7 (F := Ideal) C Q) (funext fun a => Fin.ext ?_)) (v7_apply C Q b n m)
  match a with
  | ⟨0, _⟩ => rfl
  | ⟨1, _⟩ => rfl
  | ⟨2, _⟩ => rfl

/-- The normalized weight at (b, n, m). -/
theorem v11_apply (b : Fin 16) (n : Fin 2048) (m : Fin 512) :
    val_main_v11 (F := Ideal) C Q (ix3 b n m)
      = Ideal.div (Ideal.exp (scoreRow C Q b n m - max negInf (AttnLaw.rowMax negInf (scoreRow C Q b n))))
          (0 + ∑ m' : Fin 512, Ideal.exp (scoreRow C Q b n m' - max negInf (AttnLaw.rowMax negInf (scoreRow C Q b n)))) := by
  rw [val_main_v11_apply, v7_apply, val_main_v10_apply, val_main_v9_apply]
  have e : idx_main_v9 (idx_main_v10 (ix3 b n m)) = ix2 b n := funext fun a => Fin.ext (by
    match a with
    | ⟨0, _⟩ => rfl
    | ⟨1, _⟩ => rfl)
  rw [e, v8_apply]
  rfl

/-- The attended question at (b, n, d), softmax first. -/
theorem v12_apply (b : Fin 16) (n : Fin 2048) (d : Fin 256) :
    val_main_v12 (F := Ideal) C Q (ix3 b n d)
      = AttnLaw.normalized negInf 0 (scoreRow C Q b n) (fun m => Q (ix3 b m d)) := by
  rw [val_main_v12_apply]
  unfold AttnLaw.normalized
  refine Finset.sum_congr rfl fun m _ => ?_
  refine congrArg₂ (· * ·) ?_ (congrArg Q (funext fun a => Fin.ext ?_))
  · refine Eq.trans (congrArg (val_main_v11 (F := Ideal) C Q) (funext fun a => Fin.ext ?_)) (v11_apply C Q b n m)
    match a with
    | ⟨0, _⟩ => rfl
    | ⟨1, _⟩ => rfl
    | ⟨2, _⟩ => rfl
  · match a with
    | ⟨0, _⟩ => rfl
    | ⟨1, _⟩ => rfl
    | ⟨2, _⟩ => rfl

/-- The reference's result is G of its arguments when their entries are real. -/
theorem v13_eq (hR : AllReal C Q) : val_main_v13 (F := Ideal) C Q = G C Q := by
  funext i
  unfold val_main_v13 G
  have h2 : (i 2).val < 512 := (i 2).isLt
  by_cases h : (i 2).val < 256
  · rw [if_pos h]
    refine concatenate_pair_apply_left (t := S16x2048x512) (s₁ := S16x2048x256) (s₂ := S16x2048x256) (2 : Fin 3) C
      (val_main_v12 (F := Ideal) C Q) concatenates_S16x2048x256_S16x2048x256_S16x2048x512_d2 i rfl
      (ix3 (i 0) (i 1) (Cert.Spec.half (i 2))) fun a => ?_
    match a with
    | ⟨0, _⟩ => rfl
    | ⟨1, _⟩ => rfl
    | ⟨2, _⟩ => exact Nat.mod_eq_of_lt h
  · rw [if_neg h]
    refine (concatenate_pair_apply_right (t := S16x2048x512) (s₁ := S16x2048x256) (s₂ := S16x2048x256) (2 : Fin 3) C
      (val_main_v12 (F := Ideal) C Q) concatenates_S16x2048x256_S16x2048x256_S16x2048x512_d2 i rfl rfl
      (ix3 (i 0) (i 1) (Cert.Spec.half (i 2))) (fun a ha => ?_) ?_).trans ?_
    · match a with
      | ⟨0, _⟩ => rfl
      | ⟨1, _⟩ => rfl
      | ⟨2, _⟩ => exact absurd rfl ha
    · show (i 2).val % 256 + 256 = (i 2).val
      omega
    · refine (v12_apply C Q (i 0) (i 1) (Cert.Spec.half (i 2))).trans ?_
      exact Cert.Spec.normalized_eq C Q hR (i 0) (i 1) _

end Cert.ReferenceIdeal.Stages

end
-- ==== Proof.Finite.lean ====
/-
  The precondition, read back: every entry of both argument arrays is a real number.

  The precondition compares the absolute value of every entry with +∞ and takes the conjunction of all the
  comparisons, array by array.  If the conjunction is true, every comparison is; and an extended real x with
  max x (-x) < +∞ is neither +∞ nor -∞.
-/
import proofs.«420447_j20882130993254_3_alg».proof.Proof.Gen.Pre_finite_inputs
import proofs.«420447_j20882130993254_3_alg».proof.Proof.Spec
import Idealize.ShloMosaic.Lib.ReduceAll
import Idealize.ShloMosaic.PureOps.Ideal.Laws

noncomputable section

namespace Cert.Pre_finite_inputs.Finite

open Cert.Pre_finite_inputs Idealize.ShloMosaic Idealize.ShloMosaic.ValueIdx

/-- An extended real whose absolute value is below +∞ (the f32 pattern 0x7F800000) is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton S_.Idx := ⟨fun a b => funext fun d => d.elim0⟩

/-- If the precondition holds of two arrays, all their entries are real. -/
theorem allReal_of_pre (A : FVec Ideal S16x2048x256 .f32) (B : FVec Ideal S16x512x256 .f32)
    (h : fn (F := Ideal) A B = fun _ => 1#1) : Cert.Spec.AllReal A B := by
  have h0 := congrFun h ix0
  dsimp only [fn] at h0
  obtain ⟨hA, hB⟩ := IntOp.andi_eq_one.1 h0
  refine ⟨fun i => ?_, fun i => ?_⟩
  · exact real_of_abs_lt (A i) (Host.reduce_andi_all _ _ _ _ ix0 hA i)
  · exact real_of_abs_lt (B i) (Host.reduce_andi_all _ _ _ _ ix0 hB i)

end Cert.Pre_finite_inputs.Finite

end
-- ==== Proof.lean ====
/-
  Attention over a question with the context copied alongside: the kernel against its reference, on the extended reals.

  For each batch b the kernel forms the scores  score n m = ∑ d, C (b, n, d) * Q (b, m, d),  the row maxima, the weights
  w n m = exp (score n m - max_m' score n m'), the weighted sums ∑ m, w n m * Q (b, m, d), and only then divides row n by
  ∑ m, w n m; it writes the context block into columns 0..255 of the result and the quotient into columns 256..511.  The
  reference divides the weights by their row sums first (softmax) and multiplies the normalized weights into the
  question rows afterwards, then concatenates the context and that product.

  Under the precondition every input entry is a real number (Finite.lean), so every score is real, every row maximum
  is real, every weight is a positive real and every row sum λ a positive real; division by λ is multiplication by
  1/λ, and (∑ m, w m · v m) · (1/λ) = ∑ m, (w m · (1/λ)) · v m (AttnLaw.lean, Spec.lean).  A change of float format is
  the identity on the extended reals, the row maximum started at -∞ and taken again against -∞ is the same maximum, and
  a sum started at 0 is the sum.

  The kernel side: each piece the body stores is a restriction of one function of the block index (KernelBlock.lean,
  Final.lean), block t of that function is block t of the whole-array function G, and the sixteen blocks tile the
  result, so the result array ends at G of the argument arrays.  The reference side: its run's term, read one
  operation at a time at an entry, is G as well (RefStages.lean).
-/
import proofs.«420447_j20882130993254_3_alg».proof.Defs
import proofs.«420447_j20882130993254_3_alg».proof.Proof.Gen.Kernel
import proofs.«420447_j20882130993254_3_alg».proof.Proof.Gen.Kernel.Skeleton
import proofs.«420447_j20882130993254_3_alg».proof.Proof.Gen.Kernel.Launch
import proofs.«420447_j20882130993254_3_alg».proof.Proof.Gen.Kernel.Points
import proofs.«420447_j20882130993254_3_alg».proof.Proof.Gen.Kernel.Frame
import proofs.«420447_j20882130993254_3_alg».proof.Proof.Gen.KernelIdeal
import proofs.«420447_j20882130993254_3_alg».proof.Proof.Gen.KernelIdeal.Skeleton
import proofs.«420447_j20882130993254_3_alg».proof.Proof.Gen.KernelIdeal.Launch
import proofs.«420447_j20882130993254_3_alg».proof.Proof.Gen.KernelIdeal.Points
import proofs.«420447_j20882130993254_3_alg».proof.Proof.Gen.KernelIdeal.Frame
import proofs.«420447_j20882130993254_3_alg».proof.Proof.Gen.ReferenceIdeal
import proofs.«420447_j20882130993254_3_alg».proof.Proof.Gen.Pre_finite_inputs
import proofs.«420447_j20882130993254_3_alg».proof.Proof.Gen.KernelIdeal.Value
import proofs.«420447_j20882130993254_3_alg».proof.Proof.Gen.ReferenceIdeal.Run
import proofs.«420447_j20882130993254_3_alg».proof.Proof.Gen.ReferenceIdeal.Read
import proofs.«420447_j20882130993254_3_alg».proof.Proof.Final
import proofs.«420447_j20882130993254_3_alg».proof.Proof.RefStages
import proofs.«420447_j20882130993254_3_alg».proof.Proof.Finite
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its reading on the extended reals. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at G of the (real-valued) argument arrays. -/
theorem algebraic : Cert.algebraic_KernelIdeal_ReferenceIdeal := by
  intro m ρ m' ρ' hpre hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v13_eq]
  exact Cert.ReferenceIdeal.Stages.v13_eq _ _ (Cert.Pre_finite_inputs.Finite.allReal_of_pre _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
